-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x16 : Shape := ⟨2, ![8388608, 16]⟩
abbrev S1 : Shape := ⟨1, ![1]⟩
abbrev S_ : Shape := ⟨0, ![]⟩

class Facts : Prop where
  bcast_S_S8388608x16 : S_.BroadcastsInDim S8388608x16 (![] : Fin 0 → Fin S8388608x16.rank)
  reducesTo_S8388608x16_S_d0_1 : S8388608x16.ReducesTo [0, 1] S_
  h_S_ : 0 < S_.numel

variable [Facts]

def fn {F : FTy → Type} [FloatOps F] (main_arg0 : FVec F S8388608x16 .f32) (main_arg1 : IVec S1 32) (main_arg2 : IVec S1 32) : IVec S_ 1 :=
  let main_v0 : FVec F S8388608x16 .f32 := Host.absf main_arg0
  let main_cst : FVec F S_ .f32 := constant S_ .f32 0x7F800000#32
  let main_v1 : FVec F S8388608x16 .f32 := broadcastInDim S8388608x16 ![] bcast_S_S8388608x16 main_cst
  let main_v2 : IVec S8388608x16 1 := cmpf .olt main_v0 main_v1
  let main_c : IVec S_ 1 := constantI S_ 1 1#1
  let main_v3 : IVec S_ 1 := (fun x v => Host.reduce IntOp.andi x v reducesTo_S8388608x16_S_d0_1 h_S_) main_v2 main_c
  main_v3
-- ==== Kernel.lean ====
abbrev S8388608x16 : Shape := ⟨2, ![8388608, 16]⟩
abbrev S1 : Shape := ⟨1, ![1]⟩
abbrev S_ : Shape := ⟨0, ![]⟩
abbrev S16 : Shape := ⟨1, ![16]⟩
abbrev S1x16 : Shape := ⟨2, ![1, 16]⟩
abbrev S65536x16 : Shape := ⟨2, ![65536, 16]⟩

abbrev nBuf : Space → Nat
  | .hbm => 41
  | .vmem => 5
  | .smem => 0
  | _ => 0

abbrev bufTy : (tb : Table) → Fin (tcTables nBuf tb) → BufTy
  | .hbm, ⟨0, _⟩ => ⟨S8388608x16, .f32⟩
  | .hbm, ⟨1, _⟩ => ⟨S1, .i32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S_, .i1⟩
  | .hbm, ⟨26, _⟩ => ⟨S16, .i1⟩
  | .hbm, ⟨27, _⟩ => ⟨S16, .i1⟩
  | .hbm, ⟨28, _⟩ => ⟨S16, .i1⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S16, .i1⟩
  | .hbm, ⟨34, _⟩ => ⟨S_, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S1x16, .f32⟩
  | .hbm, ⟨40, _⟩ => ⟨S8388608x16, .f32⟩
  | .local _ .vmem, ⟨0, _⟩ => ⟨S1x16, .f32⟩
  | .local _ .vmem, ⟨1, _⟩ => ⟨S65536x16, .f32⟩
  | .local _ .vmem, ⟨2, _⟩ => ⟨S65536x16, .f32⟩
  | .local _ .vmem, ⟨3, _⟩ => ⟨S65536x16, .f32⟩
  | .local _ .vmem, ⟨4, _⟩ => ⟨S65536x16, .f32⟩
  | _, _ => ⟨S8388608x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S65536x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S65536x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1_S_ : S1.ShapeCasts S_
  bcast_S_S16 : S_.BroadcastsInDim S16 (![] : Fin 0 → Fin S16.rank)
  bcast_S16_S1x16_1 : S16.BroadcastsInDim S1x16 (![1] : Fin 1 → Fin S1x16.rank)
  inb_S65536x16_S65536x16_0_0 : ∀ a, (![0, 0] : Fin 2 → Nat) a + S65536x16.size a ≤ S65536x16.size a
  h_S65536x16 : 0 < S65536x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S65536x16 : S1x16.Broadcasts S65536x16
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16.size a ≤ S1x16.size a
  hwx0_0 : ∀ i : grid0.Coords, EltTy.bits .f32 = 32 ∨ (Rect.block (s := S1x16) S1x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x16.size a ≤ S8388608x16.size a
  hwx0_1 : ∀ i : grid0.Coords, EltTy.bits .f32 = 32 ∨ (Rect.block (s := S8388608x16) S65536x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S65536x16.size a ≤ S8388608x16.size a
  hwx0_2 : ∀ i : grid0.Coords, EltTy.bits .f32 = 32 ∨ (Rect.block (s := S8388608x16) S65536x16.size (cc0_transform_2 i) (hinb0_2 i)).WholeWords (EltTy.packing .f32)

variable [Facts₀]

abbrev win0_0 : Pipeline.Window sig grid0 :=
  Pipeline.Window.ofSpec (Memref.whole main_v10) S1x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S65536x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S65536x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x16 : Shape := ⟨2, ![8388608, 16]⟩
abbrev S1 : Shape := ⟨1, ![1]⟩
abbrev S_ : Shape := ⟨0, ![]⟩
abbrev S16 : Shape := ⟨1, ![16]⟩
abbrev S1x16 : Shape := ⟨2, ![1, 16]⟩

abbrev nBuf : Space → Nat
  | .hbm => 39
  | .vmem => 0
  | .smem => 0
  | _ => 0

abbrev bufTy : (tb : Table) → Fin (tcTables nBuf tb) → BufTy
  | .hbm, ⟨0, _⟩ => ⟨S8388608x16, .f32⟩
  | .hbm, ⟨1, _⟩ => ⟨S1, .i32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S_, .i1⟩
  | .hbm, ⟨26, _⟩ => ⟨S16, .i1⟩
  | .hbm, ⟨27, _⟩ => ⟨S16, .i1⟩
  | .hbm, ⟨28, _⟩ => ⟨S16, .i1⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S16, .i1⟩
  | .hbm, ⟨34, _⟩ => ⟨S1x16, .i1⟩
  | .hbm, ⟨35, _⟩ => ⟨S_, .f32⟩
  | .hbm, ⟨36, _⟩ => ⟨S8388608x16, .i1⟩
  | .hbm, ⟨37, _⟩ => ⟨S8388608x16, .f32⟩
  | .hbm, ⟨38, _⟩ => ⟨S8388608x16, .f32⟩
  | _, _ => ⟨S8388608x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_v10 : Ref sig .tc := ⟨.hbm, 38, rfl⟩

abbrev nD : Nat := 1
abbrev τ : Topo := Topo.v7x

variable {F : FTy → Type} [FloatOps F]

class Facts₀ : Prop where
  shapeCasts_S1_S_ : S1.ShapeCasts S_
  bcast_S_S16 : S_.BroadcastsInDim S16 (![] : Fin 0 → Fin S16.rank)
  bcast_S16_S1x16_1 : S16.BroadcastsInDim S1x16 (![1] : Fin 1 → Fin S1x16.rank)
  bcast_S1x16_S8388608x16_0_1 : S1x16.BroadcastsInDim S8388608x16 (![0, 1] : Fin 2 → Fin S8388608x16.rank)
  bcast_S_S8388608x16 : S_.BroadcastsInDim S8388608x16 (![] : Fin 0 → Fin S8388608x16.rank)

variable [Facts₀]

class Facts : Prop extends Facts₀ where

variable [Facts]
-- ==== Proof.MaskSpec.lean ====
/-
  The mathematics of the ring mask, with no program in sight.

  Sixteen columns sit on a ring.  A start column `s` and a count `n = 2 + c` pick the arc
  `{ j : (j - s) mod 16 < n }` (all arithmetic on 32-bit words, the remainder being the floor remainder:
  a truncated remainder moved back by the divisor when its sign differs from the divisor's).  Column `j` of
  every row of the image is wiped to zero when `j` is on the arc and kept otherwise.

  One program wipes by SELECTION: `out[r, j] = if arc j then 0 else img[r, j]`.
  The other wipes by MULTIPLICATION with a row of zeros and ones: `out[r, j] = img[r, j] * (if arc j then 0 else 1)`.
  On the extended reals `x * 0 = 0` and `x * 1 = x` for EVERY `x` (infinite ones included: the extended reals are a
  monoid with zero), so the two agree entry by entry, with no hypothesis on the image.

  The arc itself is the SAME chain of word operations in both programs; it is named here once (`arc`) and never opened.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.RingMask

open Idealize.ShloMosaic Idealize.ShloMosaic.ValueIdx

/-! ## Shapes -/

/-- A single word held as a vector of length one. -/
abbrev One : Shape := ⟨1, ![1]⟩
/-- A scalar. -/
abbrev Sc : Shape := ⟨0, ![]⟩
/-- The sixteen columns. -/
abbrev Cols : Shape := ⟨1, ![16]⟩
/-- One row of sixteen columns. -/
abbrev Row : Shape := ⟨2, ![1, 16]⟩
/-- The image: 8388608 rows of sixteen columns. -/
abbrev Img : Shape := ⟨2, ![8388608, 16]⟩

theorem one_to_sc : One.ShapeCasts Sc := by decide
theorem sc_to_cols : Sc.BroadcastsInDim Cols (![] : Fin 0 → Fin Cols.rank) := by decide
theorem cols_to_row : Cols.BroadcastsInDim Row (![1] : Fin 1 → Fin Row.rank) := by decide
theorem row_to_img : Row.BroadcastsInDim Img (![0, 1] : Fin 2 → Fin Img.rank) := by decide
theorem sc_to_img : Sc.BroadcastsInDim Img (![] : Fin 0 → Fin Img.rank) := by decide

/-! ## The arc -/

/-- The floor remainder of each column's word by a scalar divisor `d` (a zero divisor read as one): the truncated
    remainder `r`, moved by `d` exactly where `r` is not zero and its sign differs from `d`'s. -/
def floorRem (x : IVec Cols 32) (d : IVec Sc 32) : IVec Cols 32 :=
  let d0 : IVec Sc 32 := id d
  let isZero : IVec Sc 1 := cmpi .eq d0 (constantI Sc 32 0#32)
  let d1 : IVec Sc 32 := select isZero (constantI Sc 32 1#32) d0
  let r : IVec Cols 32 := Host.remsi x (broadcastInDim Cols ![] sc_to_cols d1)
  let nonzero : IVec Cols 1 := cmpi .ne r (broadcastInDim Cols ![] sc_to_cols (constantI Sc 32 0#32))
  let rNeg : IVec Cols 1 := cmpi .slt r (broadcastInDim Cols ![] sc_to_cols (constantI Sc 32 0#32))
  let dNeg : IVec Sc 1 := cmpi .slt d1 (constantI Sc 32 0#32)
  let signsDiffer : IVec Cols 1 := cmpi .ne rNeg (broadcastInDim Cols ![] sc_to_cols dNeg)
  let move : IVec Cols 1 := andi signsDiffer nonzero
  select move (addi r (broadcastInDim Cols ![] sc_to_cols d1)) r

/-- Which columns are on the arc, from the count offset `c` and the start `s` (each one word):
    column `j` is on it when `(j - s) mod 16 < 2 + c`. -/
def arc (c s : IVec One 32) : IVec Cols 1 :=
  let c0 : IVec Sc 32 := shapeCast Sc c one_to_sc
  let n : IVec Sc 32 := addi (constantI Sc 32 2#32) c0
  let j : IVec Cols 32 := iotaInDim Cols 32 0
  let s0 : IVec Sc 32 := shapeCast Sc s one_to_sc
  let shifted : IVec Cols 32 := subi j (broadcastInDim Cols ![] sc_to_cols s0)
  let ring : IVec Cols 32 := floorRem shifted (constantI Sc 32 16#32)
  cmpi .slt ring (broadcastInDim Cols ![] sc_to_cols n)

/-! ## The two ways of wiping -/

variable {F : FTy → Type} [FloatOps F]

/-- The row of zeros (on the arc) and ones (off it). -/
def keepRow (a : IVec Cols 1) : FVec F Row .f32 :=
  broadcastInDim Row ![1] cols_to_row
    (select a (broadcastInDim Cols ![] sc_to_cols (constant Sc .f32 0x00000000#32))
              (broadcastInDim Cols ![] sc_to_cols (constant Sc .f32 0x3F800000#32)))

/-- Wiping by selection: zero on the arc's columns, the image elsewhere. -/
def wipeSelect (img : FVec F Img .f32) (a : IVec Cols 1) : FVec F Img .f32 :=
  select (broadcastInDim Img ![0, 1] row_to_img (broadcastInDim Row ![1] cols_to_row a))
    (broadcastInDim Img ![] sc_to_img (constant Sc .f32 0x00000000#32)) img

/-- The row index under an image index: row 0, the same column. -/
abbrev rowUnder (i : Img.Idx) : Row.Idx := fun a => match a with
  | ⟨0, _⟩ => ⟨0, by show 0 < 1; omega⟩
  | ⟨1, _⟩ => ⟨(i 1).val, (i 1).isLt⟩

/-- Wiping by multiplication: each entry times its column's entry of a row. -/
def wipeMul (img : FVec Ideal Img .f32) (row : FVec Ideal Row .f32) : FVec Ideal Img .f32 :=
  fun i => img i * row (rowUnder i)

/-! ## Read at an index -/

/-- The row of zeros and ones at column `j`. -/
theorem keepRow_apply (a : IVec Cols 1) (j : Fin 16) :
    keepRow (F := Ideal) a (ix2 (0 : Fin 1) j) = if a (ix1 j) = 1 then 0 else 1 := by
  unfold keepRow
  rw [broadcastInDim_apply _ cols_to_row _ (ix2 (0 : Fin 1) j) (ix1 j)
    (fun a => match a with | ⟨0, _⟩ => by show j.val = (if (16 : Nat) = 1 then 0 else j.val); rw [if_neg (by decide)])]
  rw [select_apply, broadcastInDim_scalar_apply, broadcastInDim_scalar_apply, constant_apply, constant_apply,
    Ideal.ofBits_zero_f32, Ideal.ofBits_one_f32]
  rfl

/-- Wiping by selection at row `r`, column `j`. -/
theorem wipeSelect_apply (img : FVec Ideal Img .f32) (a : IVec Cols 1) (r : Fin 8388608) (j : Fin 16) :
    wipeSelect img a (ix2 r j) = if a (ix1 j) = 1 then 0 else img (ix2 r j) := by
  unfold wipeSelect
  rw [select_apply, broadcastInDim_scalar_apply, constant_apply, Ideal.ofBits_zero_f32]
  rw [broadcastInDim_apply _ row_to_img _ (ix2 r j) (ix2 (0 : Fin 1) j)
    (fun a => match a with
      | ⟨0, _⟩ => by show (0 : Nat) = (if (1 : Nat) = 1 then 0 else r.val); rw [if_pos rfl]
      | ⟨1, _⟩ => by show j.val = (if (16 : Nat) = 1 then 0 else j.val); rw [if_neg (by decide)])]
  rw [broadcastInDim_apply _ cols_to_row _ (ix2 (0 : Fin 1) j) (ix1 j)
    (fun a => match a with | ⟨0, _⟩ => by show j.val = (if (16 : Nat) = 1 then 0 else j.val); rw [if_neg (by decide)])]
  rfl

/-- THE LAW: multiplying by the row of zeros and ones is selecting.  `x * 0 = 0` and `x * 1 = x` on all of the
    extended reals. -/
theorem wipeMul_keepRow (img : FVec Ideal Img .f32) (a : IVec Cols 1) :
    wipeMul img (keepRow a) = wipeSelect img a := by
  funext i
  obtain ⟨r, j, rfl⟩ : ∃ (r : Fin 8388608) (j : Fin 16), i = ix2 r j := ⟨i 0, i 1, eq_ix2 i⟩
  rw [wipeSelect_apply]
  show img (ix2 r j) * keepRow a (rowUnder (ix2 r j)) = _
  have e : rowUnder (ix2 r j) = ix2 (0 : Fin 1) j := by
    funext a; match a with | ⟨0, _⟩ => rfl | ⟨1, _⟩ => rfl
  rw [e, keepRow_apply]
  by_cases h : a (ix1 j) = 1
  · rw [if_pos h, if_pos h]; exact mul_zero _
  · rw [if_neg h, if_neg h]; exact mul_one _

end Cert.RingMask

end
-- ==== Proof.RefRun.lean ====
/-
  The reference program's run, read back.

  The reference is a straight line of host operations once its three helper functions (the floor remainder, the scalar
  selection inside it, and the final selection against the image) are inlined at their call sites: thirty-six
  operations, listed here in order.  Run from any memory, each buffer ends at the fold of these operations over the
  launch contents; the result buffer then holds `wipeSelect img (arc c s)` of the three arguments — zero on the arc's
  columns, the image elsewhere — and the arguments are untouched (no operation writes them).
-/
import proofs.«410160_j25494925869704_1_alg».proof.Proof.Gen.ReferenceIdeal
import proofs.«410160_j25494925869704_1_alg».proof.Proof.MaskSpec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The program's operations in order, the helper functions' operations standing where they are called:
    eight that prepare the count, the column numbers and the shifted columns; twenty-one of the floor remainder by 16
    (among them the one selection that guards a zero divisor); four that compare against the count and lay the arc out
    as a row; three of the selection against the image. -/
abbrev ops : List (HloOp τ sig (Elt F)) :=
  [ reshape main_arg1 main_v0 rfl shapeCasts_S1_S_,
    nullary main_c (constantI S_ 32 2#32),
    binary main_c main_v0 main_v1 (addi : (⟨S_, .i32⟩ : BufTy).Contents (Elt F) → (⟨S_, .i32⟩ : BufTy).Contents (Elt F) → (⟨S_, .i32⟩ : BufTy).Contents (Elt F)),
    nullary main_v2 (iotaInDim S16 32 0),
    reshape main_arg2 main_v3 rfl shapeCasts_S1_S_,
    unary main_v3 main_v4 (broadcastInDim S16 ![] bcast_S_S16 : (⟨S_, .i32⟩ : BufTy).Contents (Elt F) → (⟨S16, .i32⟩ : BufTy).Contents (Elt F)),
    binary main_v2 main_v4 main_v5 (subi : (⟨S16, .i32⟩ : BufTy).Contents (Elt F) → (⟨S16, .i32⟩ : BufTy).Contents (Elt F) → (⟨S16, .i32⟩ : BufTy).Contents (Elt F)),
    nullary main_c_0 (constantI S_ 32 16#32),
    -- the floor remainder of the shifted columns by 16
    TRef.unary (.of main_c_0 : TRef sig ⟨S_, .i32⟩) (.of main_call0_v0 : TRef sig ⟨S_, .i32⟩) id,
    TRef.nullary (.of main_call0_c : TRef sig ⟨S_, .i32⟩) (constantI S_ 32 0#32),
    TRef.binary (.of main_call0_v0 : TRef sig ⟨S_, .i32⟩) (.of main_call0_c : TRef sig ⟨S_, .i32⟩) (.of main_call0_v1 : TRef sig ⟨S_, .i1⟩) (cmpi .eq),
    TRef.nullary (.of main_call0_c_0 : TRef sig ⟨S_, .i32⟩) (constantI S_ 32 1#32),
    TRef.ternary (.of main_call0_v1 : TRef sig ⟨S_, .i1⟩) (.of main_call0_c_0 : TRef sig ⟨S_, .i32⟩) (.of main_call0_v0 : TRef sig ⟨S_, .i32⟩) (.of main_call0_v2 : TRef sig ⟨S_, .i32⟩) select,
    TRef.unary (.of main_call0_v2 : TRef sig ⟨S_, .i32⟩) (.of main_call0_v3 : TRef sig ⟨S16, .i32⟩) (broadcastInDim S16 ![] bcast_S_S16),
    TRef.binary (.of main_v5 : TRef sig ⟨S16, .i32⟩) (.of main_call0_v3 : TRef sig ⟨S16, .i32⟩) (.of main_call0_v4 : TRef sig ⟨S16, .i32⟩) Host.remsi,
    TRef.nullary (.of main_call0_c_1 : TRef sig ⟨S_, .i32⟩) (constantI S_ 32 0#32),
    TRef.unary (.of main_call0_c_1 : TRef sig ⟨S_, .i32⟩) (.of main_call0_v5 : TRef sig ⟨S16, .i32⟩) (broadcastInDim S16 ![] bcast_S_S16),
    TRef.binary (.of main_call0_v4 : TRef sig ⟨S16, .i32⟩) (.of main_call0_v5 : TRef sig ⟨S16, .i32⟩) (.of main_call0_v6 : TRef sig ⟨S16, .i1⟩) (cmpi .ne),
    TRef.nullary (.of main_call0_c_2 : TRef sig ⟨S_, .i32⟩) (constantI S_ 32 0#32),
    TRef.unary (.of main_call0_c_2 : TRef sig ⟨S_, .i32⟩) (.of main_call0_v7 : TRef sig ⟨S16, .i32⟩) (broadcastInDim S16 ![] bcast_S_S16),
    TRef.binary (.of main_call0_v4 : TRef sig ⟨S16, .i32⟩) (.of main_call0_v7 : TRef sig ⟨S16, .i32⟩) (.of main_call0_v8 : TRef sig ⟨S16, .i1⟩) (cmpi .slt),
    TRef.nullary (.of main_call0_c_3 : TRef sig ⟨S_, .i32⟩) (constantI S_ 32 0#32),
    TRef.binary (.of main_call0_v2 : TRef sig ⟨S_, .i32⟩) (.of main_call0_c_3 : TRef sig ⟨S_, .i32⟩) (.of main_call0_v9 : TRef sig ⟨S_, .i1⟩) (cmpi .slt),
    TRef.unary (.of main_call0_v9 : TRef sig ⟨S_, .i1⟩) (.of main_call0_v10 : TRef sig ⟨S16, .i1⟩) (broadcastInDim S16 ![] bcast_S_S16),
    TRef.binary (.of main_call0_v8 : TRef sig ⟨S16, .i1⟩) (.of main_call0_v10 : TRef sig ⟨S16, .i1⟩) (.of main_call0_v11 : TRef sig ⟨S16, .i1⟩) (cmpi .ne),
    TRef.binary (.of main_call0_v11 : TRef sig ⟨S16, .i1⟩) (.of main_call0_v6 : TRef sig ⟨S16, .i1⟩) (.of main_call0_v12 : TRef sig ⟨S16, .i1⟩) andi,
    TRef.unary (.of main_call0_v2 : TRef sig ⟨S_, .i32⟩) (.of main_call0_v13 : TRef sig ⟨S16, .i32⟩) (broadcastInDim S16 ![] bcast_S_S16),
    TRef.binary (.of main_call0_v4 : TRef sig ⟨S16, .i32⟩) (.of main_call0_v13 : TRef sig ⟨S16, .i32⟩) (.of main_call0_v14 : TRef sig ⟨S16, .i32⟩) addi,
    TRef.ternary (.of main_call0_v12 : TRef sig ⟨S16, .i1⟩) (.of main_call0_v14 : TRef sig ⟨S16, .i32⟩) (.of main_call0_v4 : TRef sig ⟨S16, .i32⟩) (.of main_v6 : TRef sig ⟨S16, .i32⟩) select,
    -- the arc, and its layout as a row
    unary main_v1 main_v7 (broadcastInDim S16 ![] bcast_S_S16 : (⟨S_, .i32⟩ : BufTy).Contents (Elt F) → (⟨S16, .i32⟩ : BufTy).Contents (Elt F)),
    binary main_v6 main_v7 main_v8 (cmpi .slt : (⟨S16, .i32⟩ : BufTy).Contents (Elt F) → (⟨S16, .i32⟩ : BufTy).Contents (Elt F) → (⟨S16, .i1⟩ : BufTy).Contents (Elt F)),
    unary main_v8 main_v9 (broadcastInDim S1x16 ![1] bcast_S16_S1x16_1 : (⟨S16, .i1⟩ : BufTy).Contents (Elt F) → (⟨S1x16, .i1⟩ : BufTy).Contents (Elt F)),
    nullary main_cst (constant S_ .f32 0x00000000#32),
    -- the selection against the image
    TRef.unary (.of main_v9 : TRef sig ⟨S1x16, .i1⟩) (.of main_call1_v0 : TRef sig ⟨S8388608x16, .i1⟩) (broadcastInDim S8388608x16 ![0, 1] bcast_S1x16_S8388608x16_0_1),
    TRef.unary (.of main_cst : TRef sig ⟨S_, .f32⟩) (.of main_call1_v1 : TRef sig ⟨S8388608x16, .f32⟩) (broadcastInDim S8388608x16 ![] bcast_S_S8388608x16),
    TRef.ternary (.of main_call1_v0 : TRef sig ⟨S8388608x16, .i1⟩) (.of main_call1_v1 : TRef sig ⟨S8388608x16, .f32⟩) (.of main_arg0 : TRef sig ⟨S8388608x16, .f32⟩) (.of main_v10 : TRef sig ⟨S8388608x16, .f32⟩) select ]

-- thirty-six binds re-associated under the chain
set_option maxRecDepth 1024 in
/-- The program is that straight line: the helper functions unfolded at their calls, sequencing re-associated. -/
theorem main_eq (c : Dev nD) : main (F := F) c = seq ops := by
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., nullary_bufs_sub .., reshape_bufs_sub .., unary_bufs_sub ..,
    binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    unary_bufs_sub .., binary_bufs_sub .., unary_bufs_sub .., nullary_bufs_sub ..,
    unary_bufs_sub .., unary_bufs_sub .., ternary_bufs_sub ..⟩

/-- From any memory with zero counters every weakly fair execution terminates, and each buffer ends at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the buffers hold after the run -/

open Cert.RingMask in
/-- The result buffer after the operations: zero on the arc's columns, the image elsewhere — the fold's operations are,
    one for one, the operations `arc` and `wipeSelect` name. -/
theorem out_eq (V : Valuation τ sig (Elt Ideal)) :
    after ops V (main_v10 : DevRef τ sig)
      = wipeSelect (F := Ideal) (V (main_arg0 : DevRef τ sig)) (arc (V (main_arg1 : DevRef τ sig)) (V (main_arg2 : DevRef τ sig))) := by
  after_results_simp
  rfl

/-- No operation writes the image, -/
theorem arg0_eq (V : Valuation τ sig (Elt F)) : after ops V (main_arg0 : DevRef τ sig) = V (main_arg0 : DevRef τ sig) := by
  after_results_simp
/-- the count offset, -/
theorem arg1_eq (V : Valuation τ sig (Elt F)) : after ops V (main_arg1 : DevRef τ sig) = V (main_arg1 : DevRef τ sig) := by
  after_results_simp
/-- or the start. -/
theorem arg2_eq (V : Valuation τ sig (Elt F)) : after ops V (main_arg2 : DevRef τ sig) = V (main_arg2 : DevRef τ sig) := by
  after_results_simp

open Cert.RingMask in
/-- The reference's run at the extended reals: it terminates with the result at `wipeSelect img (arc c s)` of its three
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
        = wipeSelect (F := Ideal) (m ((c.tc : Thread nD τ).loc main_arg0)) (arc (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (out_eq _),
      (h c main_arg0).trans (arg0_eq _), (h c main_arg1).trans (arg1_eq _), (h c main_arg2).trans (arg2_eq _)⟩)
    (run_main m ρ)

end Cert.ReferenceIdeal.RefValue

end
-- ==== Proof.KernelValue.lean ====
/-
  The kernel's result array, read as ONE function of the arguments.

  The kernel walks the image in 128 blocks of 65536 rows.  At grid point `t` it loads block `t` of the image and the
  (single, never moving) row of zeros and ones, multiplies each entry of the block by the row's entry in the same
  column, and writes the product back as block `t` of the result.  Row `r` of the result therefore comes from point
  `r / 65536`, and the blocks tile the array, so the whole result is `wipeMul img row`: entry `(r, j)` is
  `img[r, j] * row[0, j]`.

  The row itself is what the host operations before the kernel leave: `keepRow (arc c s)`, zero on the arc's columns
  and one off it.  With the law `wipeMul img (keepRow a) = wipeSelect img a` the result is `wipeSelect img (arc c s)`.
-/
import proofs.«410160_j25494925869704_1_alg».proof.Proof.Gen.KernelIdeal.Value
import proofs.«410160_j25494925869704_1_alg».proof.Proof.MaskSpec
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Cert.RingMask

variable (m : (ℓ : Loc nD τ sig) → Buf (Elt Ideal) ℓ) (ρ : Dev nD → PrngReg)

/-! ## The row the kernel is given -/

/-- When the kernel starts, its first operand holds the row of zeros and ones of the arc of the two word arguments:
    the host operations before it are, one for one, the operations `arc` and `keepRow` name. -/
theorem row_eq (c : Dev nD) :
    (V m c main_v10 : FVec Ideal Row .f32)
      = keepRow (F := Ideal) (arc (m ((c : Thread nD τ).loc main_arg1)) (m ((c : Thread nD τ).loc main_arg2))) := by
  dsimp only [V]
  simp only [hostOps0, hostOps0_1, hostOps0_2, hostOps0_3, hostOps0_4, List.flatten_cons, List.flatten_nil, List.append_nil,
    List.cons_append, List.nil_append]
  after_results_simp
  rfl

/-! ## One block -/

theorem origin : (![0, 0] : Fin 2 → Nat) = fun _ => 0 := funext fun a => by fin_cases a <;> rfl

/-- The row index under a block index: row 0, the same column. -/
abbrev rowUnderBlock (y : S65536x16.Idx) : S1x16.Idx := fun a => match a with
  | ⟨0, _⟩ => ⟨0, by show 0 < 1; omega⟩
  | ⟨1, _⟩ => ⟨(y 1).val, (y 1).isLt⟩

/-- The body's product at a block index: the block's entry times the row's entry in the same column. -/
theorem product_apply (P0 : Vec Ideal S65536x16 .f32) (P1 : Vec Ideal S1x16 .f32) (y : S65536x16.Idx) :
    k0_pay1 P0 P1 y = FloatOps.mulf (F := Ideal) (φ := .f32) (P0 y) (P1 (rowUnderBlock y)) := by
  refine (Value.piece2_0 P0 P1 y).trans ?_
  show FloatOps.mulf (F := Ideal) (φ := .f32) (P0 (Value.ix2_0 (r0_0.idx y))) (P1 (Value.ix2_1 (r0_0.idx y))) = _
  have e0 : Value.ix2_0 (r0_0.idx y) = y := by
    funext a; apply Fin.ext
    match a with
    | ⟨0, _⟩ => show (0 + 1 * (y 0).val) = (y 0).val; omega
    | ⟨1, _⟩ => show (0 + 1 * (y 1).val) = (y 1).val; omega
  have e1 : Value.ix2_1 (r0_0.idx y) = rowUnderBlock y := by
    funext a; apply Fin.ext
    match a with
    | ⟨0, _⟩ => rfl
    | ⟨1, _⟩ => show (0 + 1 * (y 1).val) = (y 1).val; omega
  rw [e0, e1]

/-- Where the windows' blocks lie, decided over the 128 grid points: the row's window never moves, the image's and the
    result's windows are both at block row `t`, column block 0. -/
theorem block_positions : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `wipeMul` of the image and the row as the kernel finds them. -/
theorem flushed_eq (c : Dev nD) (t : Fin cfg0.N) :
    (dats m 0 c).flushed 2 t
      = ((cfg0.win 2).blk t).view.read (Elt Ideal) (wipeMul (V m c main_arg0) (V m c main_v10)) := by
  show (cfg0.win 2).cut (grid0.coords t) ((dats m 0 c).after 2 t) = _
  rw [after0_2]
  unfold out0_2
  rw [View.canon_unit_zero origin]
  simp only [View.ld_unit_zero (S := S65536x16) origin, View.ld_unit_zero (S := S1x16) origin]
  obtain ⟨p0, p1, p2, p3, p4, p5⟩ := block_positions t
  funext j
  refine (product_apply (iblk m c 1 t) (iblk m c 0 t) j).trans ?_
  show FloatOps.mulf (F := Ideal) (φ := .f32) (V m c main_arg0 (((cfg0.win 1).blk t).view.emb j)) (V m c main_v10 (((cfg0.win 0).blk t).view.emb (rowUnderBlock j)))
    = FloatOps.mulf (F := Ideal) (φ := .f32) (V m c main_arg0 (((cfg0.win 2).blk t).view.emb j)) (V m c main_v10 (rowUnder (((cfg0.win 2).blk t).view.emb j)))
  have h1 : ((cfg0.win 1).blk t).view.emb j = ((cfg0.win 2).blk t).view.emb j := by
    funext a; apply Fin.ext
    match a with
    | ⟨0, _⟩ => show win0_1.index t (0 : Fin 2) * 65536 + 1 * (j 0).val = win0_2.index t (0 : Fin 2) * 65536 + 1 * (j 0).val; omega
    | ⟨1, _⟩ => show win0_1.index t (1 : Fin 2) * 16 + 1 * (j 1).val = win0_2.index t (1 : Fin 2) * 16 + 1 * (j 1).val; omega
  have h0 : ((cfg0.win 0).blk t).view.emb (rowUnderBlock j) = rowUnder (((cfg0.win 2).blk t).view.emb j) := by
    funext a; apply Fin.ext
    match a with
    | ⟨0, _⟩ => show win0_0.index t (0 : Fin 2) * 1 + 1 * 0 = 0; omega
    | ⟨1, _⟩ => show win0_0.index t (1 : Fin 2) * 16 + 1 * (j 1).val = win0_2.index t (1 : Fin 2) * 16 + 1 * (j 1).val; omega
  rw [h1, h0]

/-! ## The blocks tile the array -/

/-- An index of the array is in point `t`'s block iff each coordinate is in the block's range on its axis. -/
theorem mem_block (t : Fin cfg0.N) (i : S8388608x16.Idx) :
    i ∈ ((cfg0.win 2).blk t).view.set ↔ ∀ a : Fin 2, win0_2.index t a * S65536x16.size a ≤ (i a).val ∧ (i a).val < win0_2.index t a * S65536x16.size a + S65536x16.size a := by
  show i ∈ ((View.whole main_v11).slice (win0_2.rect t)).set ↔ _
  rw [View.set_slice_whole, Rect.mem_set_unit]
  exact Iff.rfl

/-- Row `r` lies in the block of point `r / 65536`: every index of the result is written by some point. -/
theorem covered (i : S8388608x16.Idx) :
    ∃ t : Fin cfg0.N, (cfg0.win 2).flush t = true ∧ i ∈ ((cfg0.win 2).blk t).view.set := by
  have hi0 : (i 0).val < 8388608 := (i 0).isLt
  have hi1 : (i 1).val < 16 := (i 1).isLt
  have hN : grid0.N = 128 := N_0
  let t : Fin cfg0.N := ⟨(i 0).val / 65536, by show (i 0).val / 65536 < grid0.N; omega⟩
  have ht : t.val = (i 0).val / 65536 := rfl
  obtain ⟨p0, p1, p2, p3, p4, p5⟩ := block_positions t
  refine ⟨t, flush0_2 t, ?_⟩
  rw [mem_block]
  intro a
  match a with
  | ⟨0, _⟩ => show win0_2.index t (0 : Fin 2) * 65536 ≤ (i 0).val ∧ (i 0).val < win0_2.index t (0 : Fin 2) * 65536 + 65536; omega
  | ⟨1, _⟩ => show win0_2.index t (1 : Fin 2) * 16 ≤ (i 1).val ∧ (i 1).val < win0_2.index t (1 : Fin 2) * 16 + 16; omega

/-- THE RESULT ARRAY after the run: `wipeMul` of the image and the row as the kernel finds them. -/
theorem final (c : Dev nD) :
    (dats m 0 c).arrAt 2 cfg0.N = wipeMul (V m c main_arg0) (V m c main_v10) :=
  (dats m 0 c).arrAt_eq_of_cover 2 (wipeMul (V m c main_arg0) (V m c main_v10)) (fun t _ => flushed_eq m c t) covered

/-- The same as a function of the three arguments: zero on the arc's columns, the image elsewhere. -/
theorem final_select (c : Dev nD) :
    (dats m 0 c).arrAt 2 cfg0.N
      = wipeSelect (F := Ideal) (m ((c : Thread nD τ).loc main_arg0))
          (arc (m ((c : Thread nD τ).loc main_arg1)) (m ((c : Thread nD τ).loc main_arg2))) := by
  rw [final, ← wipeMul_keepRow, ← row_eq m c]
  exact congrArg (fun x => wipeMul x (V m c main_v10)) (V_main_arg0 m c)

/-! ## The run -/

/-- The kernel's run at the extended reals: it terminates with the result at `wipeSelect img (arc c s)` of its three
    arguments and the arguments unchanged. -/
theorem run : θ_run defs (onTc (τ := τ) (main (F := Ideal))) ⟨m, fun _ => 0, ρ⟩ fun r => ∀ c : Dev nD,
      r.2.mem ((c : Thread nD τ).loc main_v11)
        = wipeSelect (F := Ideal) (m ((c : Thread nD τ).loc main_arg0))
            (arc (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_select m c), (h c).2⟩) (Value.run_blocks m ρ)

end Cert.KernelIdeal.ArrayValue

end
-- ==== Proof.lean ====
/- The claim: wiping the arc's columns of a 8388608 x 16 image by MULTIPLICATION with a row of zeros and ones (the kernel,
   block by block) gives, entry by entry over the extended reals, what wiping by SELECTION gives (the reference).

   Both programs build the arc `{ j : (j - s) mod 16 < 2 + c }` of the sixteen columns by the same chain of word
   operations (Proof/MaskSpec.lean names it once, `arc`, and never opens it).  The reference's result is
   `wipeSelect img (arc c s)` (Proof/RefRun.lean: its run, operation by operation).  The kernel's result is
   `wipeMul img (keepRow (arc c s))`: each of its 128 grid points writes one block of 65536 rows, the blocks tile the
   array (Proof/KernelValue.lean).  The two are equal because `x * 0 = 0` and `x * 1 = x` for every extended real
   (`wipeMul_keepRow`); nothing is asked of the image, so the finiteness precondition is never opened.

   The three frame claims: the two kernel programs' by their frame certificates, the reference's by its run with the
   result dropped.  The idealization rewrote nothing, so there is nothing to preserve. -/
import proofs.«410160_j25494925869704_1_alg».proof.Defs
import proofs.«410160_j25494925869704_1_alg».proof.Proof.Gen.Kernel
import proofs.«410160_j25494925869704_1_alg».proof.Proof.Gen.Kernel.Skeleton
import proofs.«410160_j25494925869704_1_alg».proof.Proof.Gen.Kernel.Launch
import proofs.«410160_j25494925869704_1_alg».proof.Proof.Gen.Kernel.Points
import proofs.«410160_j25494925869704_1_alg».proof.Proof.Gen.Kernel.Frame
import proofs.«410160_j25494925869704_1_alg».proof.Proof.Gen.KernelIdeal
import proofs.«410160_j25494925869704_1_alg».proof.Proof.Gen.KernelIdeal.Skeleton
import proofs.«410160_j25494925869704_1_alg».proof.Proof.Gen.KernelIdeal.Launch
import proofs.«410160_j25494925869704_1_alg».proof.Proof.Gen.KernelIdeal.Points
import proofs.«410160_j25494925869704_1_alg».proof.Proof.Gen.KernelIdeal.Frame
import proofs.«410160_j25494925869704_1_alg».proof.Proof.Gen.KernelIdeal.Value
import proofs.«410160_j25494925869704_1_alg».proof.Proof.Gen.ReferenceIdeal
import proofs.«410160_j25494925869704_1_alg».proof.Proof.Gen.Pre_finite_inputs
import proofs.«410160_j25494925869704_1_alg».proof.Proof.MaskSpec
import proofs.«410160_j25494925869704_1_alg».proof.Proof.RefRun
import proofs.«410160_j25494925869704_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.RefValue.run m ρ)

/-- From memories that agree on the three arguments both programs end with `wipeSelect img (arc c s)` in their result. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
